-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x20 : Shape := ⟨2, ![320000, 20]⟩
abbrev S20x256 : Shape := ⟨2, ![20, 256]⟩
abbrev S256 : Shape := ⟨1, ![256]⟩
abbrev S256x256 : Shape := ⟨2, ![256, 256]⟩
abbrev S2x320000 : Shape := ⟨2, ![2, 320000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x20 : S_.BroadcastsInDim S320000x20 (![] : Fin 0 → Fin S320000x20.rank)
  reducesTo_S320000x20_S_d0_1 : S320000x20.ReducesTo [0, 1] S_
  bcast_S_S20x256 : S_.BroadcastsInDim S20x256 (![] : Fin 0 → Fin S20x256.rank)
  reducesTo_S20x256_S_d0_1 : S20x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x256 .f32) (main_arg1 : FVec F S320000x20 .f32) (main_arg2 : FVec F S20x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : IVec S2x320000 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x20 .f32 := Host.absf main_arg1
  let main_cst_0 : FVec F S_ .f32 := constant S_ .f32 0x7F800000#32
  let main_v5 : FVec F S320000x20 .f32 := broadcastInDim S320000x20 ![] bcast_S_S320000x20 main_cst_0
  let main_v6 : IVec S320000x20 1 := cmpf .olt main_v4 main_v5
  let main_c_1 : IVec S_ 1 := constantI S_ 1 1#1
  let main_v7 : IVec S_ 1 := (fun x v => Host.reduce IntOp.andi x v reducesTo_S320000x20_S_d0_1 h_S_) main_v6 main_c_1
  let main_v8 : IVec S_ 1 := andi main_v3 main_v7
  let main_v9 : FVec F S20x256 .f32 := Host.absf main_arg2
  let main_cst_2 : FVec F S_ .f32 := constant S_ .f32 0x7F800000#32
  let main_v10 : FVec F S20x256 .f32 := broadcastInDim S20x256 ![] bcast_S_S20x256 main_cst_2
  let main_v11 : IVec S20x256 1 := cmpf .olt main_v9 main_v10
  let main_c_3 : IVec S_ 1 := constantI S_ 1 1#1
  let main_v12 : IVec S_ 1 := (fun x v => Host.reduce IntOp.andi x v reducesTo_S20x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S10000x256 : Shape := ⟨2, ![10000, 256]⟩
abbrev S320000x20 : Shape := ⟨2, ![320000, 20]⟩
abbrev S20x256 : Shape := ⟨2, ![20, 256]⟩
abbrev S256 : Shape := ⟨1, ![256]⟩
abbrev S256x256 : Shape := ⟨2, ![256, 256]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S2000x20 : Shape := ⟨2, ![2000, 20]⟩
abbrev S2000x256 : Shape := ⟨2, ![2000, 256]⟩
abbrev S1x256 : Shape := ⟨2, ![1, 256]⟩

abbrev nBuf : Space → Nat
  | .hbm => 63
  | .vmem => 18
  | .smem => 0
  | _ => 0

abbrev bufTy : (tb : Table) → Fin (tcTables nBuf tb) → BufTy
  | .hbm, ⟨0, _⟩ => ⟨S10000x256, .f32⟩
  | .hbm, ⟨1, _⟩ => ⟨S320000x20, .f32⟩
  | .hbm, ⟨2, _⟩ => ⟨S20x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S2x320000, .i32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x256, .f32⟩
  | .hbm, ⟨26, _⟩ => ⟨S320000x256, .f32⟩
  | .hbm, ⟨27, _⟩ => ⟨S_, .f32⟩
  | .hbm, ⟨28, _⟩ => ⟨S10000x256, .f32⟩
  | .hbm, ⟨29, _⟩ => ⟨S320000x1, .i32⟩
  | .hbm, ⟨30, _⟩ => ⟨S10000x256, .f32⟩
  | .hbm, ⟨31, _⟩ => ⟨S10000x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S1x256, .f32⟩
  | .hbm, ⟨38, _⟩ => ⟨S10000x256, .f32⟩
  | .hbm, ⟨39, _⟩ => ⟨S10000x256, .f32⟩
  | .hbm, ⟨40, _⟩ => ⟨S10000x256, .f32⟩
  | .hbm, ⟨41, _⟩ => ⟨S_, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S10000x256, .f32⟩
  | .hbm, ⟨48, _⟩ => ⟨S10000x256, .f32⟩
  | .hbm, ⟨49, _⟩ => ⟨S1x256, .f32⟩
  | .hbm, ⟨50, _⟩ => ⟨S10000x256, .f32⟩
  | .hbm, ⟨51, _⟩ => ⟨S10000x256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S1x256, .f32⟩
  | .hbm, ⟨57, _⟩ => ⟨S10000x256, .f32⟩
  | .hbm, ⟨58, _⟩ => ⟨S10000x256, .f32⟩
  | .hbm, ⟨59, _⟩ => ⟨S1x256, .f32⟩
  | .hbm, ⟨60, _⟩ => ⟨S10000x256, .f32⟩
  | .hbm, ⟨61, _⟩ => ⟨S10000x256, .f32⟩
  | .hbm, ⟨62, _⟩ => ⟨S10000x256, .f32⟩
  | .local _ .vmem, ⟨0, _⟩ => ⟨S2000x20, .f32⟩
  | .local _ .vmem, ⟨1, _⟩ => ⟨S2000x20, .f32⟩
  | .local _ .vmem, ⟨2, _⟩ => ⟨S2000x256, .f32⟩
  | .local _ .vmem, ⟨3, _⟩ => ⟨S2000x256, .f32⟩
  | .local _ .vmem, ⟨4, _⟩ => ⟨S20x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  inb_S2000x20_S2000x20_0_0 : ∀ a, (![0, 0] : Fin 2 → Nat) a + S2000x20.size a ≤ S2000x20.size a
  h_S2000x20 : 0 < S2000x20.numel
  bitsLt_bf16_f32 : FTy.bits .bf16 < FTy.bits .f32
  inb_S20x256_S20x256_0_0 : ∀ a, (![0, 0] : Fin 2 → Nat) a + S20x256.size a ≤ S20x256.size a
  h_S20x256 : 0 < S20x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bcast_S_S10000x256 : S_.BroadcastsInDim S10000x256 (![] : Fin 0 → Fin S10000x256.rank)
  reducesTo_S10000x256_S256_d0 : S10000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  dot_S2000x20_S20x256_S2000x256_1_0_0_1_n_n_wf : DotDims.WF S2000x20 S20x256 S2000x256 [1] [0] [0] [1] [] []
  dot_S2000x256_S256x256_S2000x256_1_0_0_1_n_n_wf : DotDims.WF S2000x256 S256x256 S2000x256 [1] [0] [0] [1] [] []
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x20.size a ≤ S320000x20.size a
  hwx0_0 : ∀ i : grid0.Coords, EltTy.bits .f32 = 32 ∨ (Rect.block (s := S320000x20) S2000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S320000x256.size a
  hwx0_1 : ∀ i : grid0.Coords, EltTy.bits .f32 = 32 ∨ (Rect.block (s := S320000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x256.size a ≤ S20x256.size a
  hwx0_2 : ∀ i : grid0.Coords, EltTy.bits .f32 = 32 ∨ (Rect.block (s := S20x256) S20x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S320000x256.size a
  hwx0_6 : ∀ i : grid0.Coords, EltTy.bits .f32 = 32 ∨ (Rect.block (s := S320000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S2000x20_S20x256_S2000x256_1_0_0_1_n_n : DotDims S2000x20 S20x256 S2000x256 where
  lhsContracting := [1]
  rhsContracting := [0]
  lhsNonContracting := [0]
  rhsNonContracting := [1]
  lhsBatch := []
  rhsBatch := []
  wf := dot_S2000x20_S20x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_arg1) S2000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S320000x20 : Shape := ⟨2, ![320000, 20]⟩
abbrev S20x256 : Shape := ⟨2, ![20, 256]⟩
abbrev S256 : Shape := ⟨1, ![256]⟩
abbrev S256x256 : Shape := ⟨2, ![256, 256]⟩
abbrev S2x320000 : Shape := ⟨2, ![2, 320000]⟩
abbrev S1x320000 : Shape := ⟨2, ![1, 320000]⟩
abbrev S320000 : Shape := ⟨1, ![320000]⟩
abbrev S320000x256 : Shape := ⟨2, ![320000, 256]⟩
abbrev S1x256 : Shape := ⟨2, ![1, 256]⟩
abbrev S_ : Shape := ⟨0, ![]⟩
abbrev S320000x1 : Shape := ⟨2, ![320000, 1]⟩

abbrev nBuf : Space → Nat
  | .hbm => 96
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x20, .f32⟩
  | .hbm, ⟨2, _⟩ => ⟨S20x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S2x320000, .i32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S320000x256, .f32⟩
  | .hbm, ⟨18, _⟩ => ⟨S1x256, .f32⟩
  | .hbm, ⟨19, _⟩ => ⟨S320000x256, .f32⟩
  | .hbm, ⟨20, _⟩ => ⟨S320000x256, .f32⟩
  | .hbm, ⟨21, _⟩ => ⟨S320000x256, .f32⟩
  | .hbm, ⟨22, _⟩ => ⟨S320000x256, .f32⟩
  | .hbm, ⟨23, _⟩ => ⟨S_, .f32⟩
  | .hbm, ⟨24, _⟩ => ⟨S320000x256, .f32⟩
  | .hbm, ⟨25, _⟩ => ⟨S320000x256, .f32⟩
  | .hbm, ⟨26, _⟩ => ⟨S_, .f32⟩
  | .hbm, ⟨27, _⟩ => ⟨S320000x256, .f32⟩
  | .hbm, ⟨28, _⟩ => ⟨S320000x256, .f32⟩
  | .hbm, ⟨29, _⟩ => ⟨S320000x256, .f32⟩
  | .hbm, ⟨30, _⟩ => ⟨S320000x256, .f32⟩
  | .hbm, ⟨31, _⟩ => ⟨S1x256, .f32⟩
  | .hbm, ⟨32, _⟩ => ⟨S320000x256, .f32⟩
  | .hbm, ⟨33, _⟩ => ⟨S320000x256, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x256, .f32⟩
  | .hbm, ⟨43, _⟩ => ⟨S320000x256, .f32⟩
  | .hbm, ⟨44, _⟩ => ⟨S_, .f32⟩
  | .hbm, ⟨45, _⟩ => ⟨S10000x256, .f32⟩
  | .hbm, ⟨46, _⟩ => ⟨S320000x1, .i32⟩
  | .hbm, ⟨47, _⟩ => ⟨S10000x256, .f32⟩
  | .hbm, ⟨48, _⟩ => ⟨S10000x256, .f32⟩
  | .hbm, ⟨49, _⟩ => ⟨S1x256, .f32⟩
  | .hbm, ⟨50, _⟩ => ⟨S10000x256, .f32⟩
  | .hbm, ⟨51, _⟩ => ⟨S10000x256, .f32⟩
  | .hbm, ⟨52, _⟩ => ⟨S10000x256, .f32⟩
  | .hbm, ⟨53, _⟩ => ⟨S10000x256, .f32⟩
  | .hbm, ⟨54, _⟩ => ⟨S_, .f32⟩
  | .hbm, ⟨55, _⟩ => ⟨S10000x256, .f32⟩
  | .hbm, ⟨56, _⟩ => ⟨S10000x256, .f32⟩
  | .hbm, ⟨57, _⟩ => ⟨S_, .f32⟩
  | .hbm, ⟨58, _⟩ => ⟨S10000x256, .f32⟩
  | .hbm, ⟨59, _⟩ => ⟨S10000x256, .f32⟩
  | .hbm, ⟨60, _⟩ => ⟨S10000x256, .f32⟩
  | .hbm, ⟨61, _⟩ => ⟨S10000x256, .f32⟩
  | .hbm, ⟨62, _⟩ => ⟨S1x256, .f32⟩
  | .hbm, ⟨63, _⟩ => ⟨S10000x256, .f32⟩
  | .hbm, ⟨64, _⟩ => ⟨S10000x256, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S10000x256, .f32⟩
  | .hbm, ⟨72, _⟩ => ⟨S10000x256, .f32⟩
  | .hbm, ⟨73, _⟩ => ⟨S10000x256, .f32⟩
  | .hbm, ⟨74, _⟩ => ⟨S_, .f32⟩
  | .hbm, ⟨75, _⟩ => ⟨S256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S1x256, .f32⟩
  | .hbm, ⟨80, _⟩ => ⟨S10000x256, .f32⟩
  | .hbm, ⟨81, _⟩ => ⟨S10000x256, .f32⟩
  | .hbm, ⟨82, _⟩ => ⟨S1x256, .f32⟩
  | .hbm, ⟨83, _⟩ => ⟨S10000x256, .f32⟩
  | .hbm, ⟨84, _⟩ => ⟨S10000x256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S1x256, .f32⟩
  | .hbm, ⟨90, _⟩ => ⟨S10000x256, .f32⟩
  | .hbm, ⟨91, _⟩ => ⟨S10000x256, .f32⟩
  | .hbm, ⟨92, _⟩ => ⟨S1x256, .f32⟩
  | .hbm, ⟨93, _⟩ => ⟨S10000x256, .f32⟩
  | .hbm, ⟨94, _⟩ => ⟨S10000x256, .f32⟩
  | .hbm, ⟨95, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_1 : Ref sig .tc := ⟨.hbm, 65, rfl⟩
abbrev main_v33 : Ref sig .tc := ⟨.hbm, 66, rfl⟩
abbrev main_cst_2 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_3 : Ref sig .tc := ⟨.hbm, 74, rfl⟩
abbrev main_v40 : Ref sig .tc := ⟨.hbm, 75, rfl⟩
abbrev main_cst_4 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_5 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S256 : S_.BroadcastsInDim S256 (![] : Fin 0 → Fin S256.rank)
  dot_S320000x20_S20x256_S320000x256_1_0_0_1_n_n_wf : DotDims.WF S320000x20 S20x256 S320000x256 [1] [0] [0] [1] [] []
  dot_S320000x256_S256x256_S320000x256_1_0_0_1_n_n_wf : DotDims.WF S320000x256 S256x256 S320000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def dot_S320000x20_S20x256_S320000x256_1_0_0_1_n_n : DotDims S320000x20 S20x256 S320000x256 where
  lhsContracting := [1]
  rhsContracting := [0]
  lhsNonContracting := [0]
  rhsNonContracting := [1]
  lhsBatch := []
  rhsBatch := []
  wf := dot_S320000x20_S20x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.MlpSpec.lean ====
/-
  A two-layer perceptron with a SiLU between its layers, read row by row over the extended reals.

  For a matrix `X` of `R` rows and `K` columns, a first layer `W1 : K × H`, `b1 : H` and a second layer
  `W2 : H × O`, `b2 : O`, row `e` of the network's output is

      mlp X W1 b1 W2 b2 e o = (∑ k, silu ((∑ l, X (e, l) · W1 (l, k)) + b1 k) · W2 (k, o)) + b2 o,

  with `silu z = z · logistic z`. Row `e` of the output reads row `e` of `X` and nothing else of it, which is
  what lets a row block of the output be computed from the same row block of `X` (`mlp_congr_row`).
  `silu` is the same function whether the logistic is one operation or is spelt `1 / (1 + e^(-z))`: on the extended
  reals the former is defined as the latter, at the infinities too.
-/
import Idealize.ShloMosaic.PureOps.Ideal.Laws
import Idealize.ShloMosaic.PureOps.IdealRules
import Idealize.ShloMosaic.Lib.ValueIdx

noncomputable section

open scoped BigOperators
open Idealize.ShloMosaic Idealize.ShloMosaic.ValueIdx

namespace Cert.Mlp

/-- `z · logistic z` on the extended reals. -/
def silu (z : EReal) : EReal := z * Ideal.logistic z

/-- The single-precision word of `1.0` denotes the real number one. -/
theorem one_f32 : Ideal.ofBits .f32 0x3F800000#32 = 1 := IdealRules.sign_bit.ideal_onePat .f32

/-- `silu` with the logistic as one operation. -/
theorem silu_logistic (z : Ideal .f32) : FloatOps.mulf z (FloatOps.logistic z) = silu z := rfl

/-- `silu` with the logistic spelt `1 / (1 + e^(-z))` in the host's operations, the two ones given by their words. -/
theorem silu_expanded (z : Ideal .f32) :
    FloatOps.mulf z (FloatOps.hostDivf (Ideal.ofBits .f32 0x3F800000#32)
      (FloatOps.addf (Ideal.ofBits .f32 0x3F800000#32) (FloatOps.hostUnary .exp (FloatOps.hostNegf z)))) = silu z := by
  rw [one_f32]; rfl

/-- The first layer's output before the activation, for row `e` and hidden unit `k`. -/
def hid {R K H : ℕ} (X : FVec Ideal ⟨2, ![R, K]⟩ .f32) (W1 : FVec Ideal ⟨2, ![K, H]⟩ .f32)
    (b1 : FVec Ideal ⟨1, ![H]⟩ .f32) (e : Fin R) (k : Fin H) : EReal :=
  (∑ l : Fin K, X (ix2 e l) * W1 (ix2 l k)) + b1 (ix1 k)

/-- Row `e`, column `o` of the network's output. -/
def mlp {R K H O : ℕ} (X : FVec Ideal ⟨2, ![R, K]⟩ .f32) (W1 : FVec Ideal ⟨2, ![K, H]⟩ .f32)
    (b1 : FVec Ideal ⟨1, ![H]⟩ .f32) (W2 : FVec Ideal ⟨2, ![H, O]⟩ .f32) (b2 : FVec Ideal ⟨1, ![O]⟩ .f32)
    (e : Fin R) (o : Fin O) : EReal :=
  (∑ k : Fin H, silu (hid X W1 b1 e k) * W2 (ix2 k o)) + b2 (ix1 o)

/-- Row `e` of the hidden layer depends on row `e` of the input only. -/
theorem hid_congr_row {R R' K H : ℕ} (X : FVec Ideal ⟨2, ![R, K]⟩ .f32) (X' : FVec Ideal ⟨2, ![R', K]⟩ .f32)
    (W1 : FVec Ideal ⟨2, ![K, H]⟩ .f32) (b1 : FVec Ideal ⟨1, ![H]⟩ .f32) (e : Fin R) (e' : Fin R')
    (h : ∀ l : Fin K, X (ix2 e l) = X' (ix2 e' l)) (k : Fin H) : hid X W1 b1 e k = hid X' W1 b1 e' k := by
  unfold hid
  rw [Finset.sum_congr rfl fun l _ => by rw [h l]]

/-- Row `e` of the output depends on row `e` of the input only. -/
theorem mlp_congr_row {R R' K H O : ℕ} (X : FVec Ideal ⟨2, ![R, K]⟩ .f32) (X' : FVec Ideal ⟨2, ![R', K]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32) (e : Fin R) (e' : Fin R')
    (h : ∀ l : Fin K, X (ix2 e l) = X' (ix2 e' l)) (o : Fin O) : mlp X W1 b1 W2 b2 e o = mlp X' W1 b1 W2 b2 e' o := by
  unfold mlp
  rw [Finset.sum_congr rfl fun k _ => by rw [hid_congr_row X X' W1 b1 e e' h k]]

/-- The network's output as an array. -/
def updSpec {R K H O : ℕ} (X : FVec Ideal ⟨2, ![R, K]⟩ .f32) (W1 : FVec Ideal ⟨2, ![K, H]⟩ .f32)
    (b1 : FVec Ideal ⟨1, ![H]⟩ .f32) (W2 : FVec Ideal ⟨2, ![H, O]⟩ .f32) (b2 : FVec Ideal ⟨1, ![O]⟩ .f32) :
    FVec Ideal ⟨2, ![R, O]⟩ .f32 := fun i => mlp X W1 b1 W2 b2 (i 0) (i 1)

/-- The network's output multiplied, entry by entry, by an array `xc` of its shape. -/
def msgSpec {R K H O : ℕ} (xc : FVec Ideal ⟨2, ![R, O]⟩ .f32) (X : FVec Ideal ⟨2, ![R, K]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32) : FVec Ideal ⟨2, ![R, O]⟩ .f32 :=
  fun i => xc i * mlp X W1 b1 W2 b2 (i 0) (i 1)

theorem updSpec_apply {R K H O : ℕ} (X : FVec Ideal ⟨2, ![R, K]⟩ .f32) (W1 : FVec Ideal ⟨2, ![K, H]⟩ .f32)
    (b1 : FVec Ideal ⟨1, ![H]⟩ .f32) (W2 : FVec Ideal ⟨2, ![H, O]⟩ .f32) (b2 : FVec Ideal ⟨1, ![O]⟩ .f32)
    (e : Fin R) (o : Fin O) : updSpec X W1 b1 W2 b2 (ix2 e o) = mlp X W1 b1 W2 b2 e o := rfl

theorem msgSpec_apply {R K H O : ℕ} (xc : FVec Ideal ⟨2, ![R, O]⟩ .f32) (X : FVec Ideal ⟨2, ![R, K]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32) (e : Fin R) (o : Fin O) :
    msgSpec xc X W1 b1 W2 b2 (ix2 e o) = xc (ix2 e o) * mlp X W1 b1 W2 b2 e o := rfl

end Cert.Mlp

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Payload.lean ====
/-
  What each kernel body stores, read at one entry of its block, over the extended reals.

  Both bodies are the same network on a block of 2000 rows: two matrix products into zero accumulators with a bias row
  added to each and a SiLU between them; the narrowing of the products' operands to sixteen bits is the identity on
  the extended reals. The first body multiplies the network's output, entry by entry, by a second block it loads.
-/
import proofs.«140102_j72086731096588_1_alg».proof.Proof.Gen.KernelIdeal.Skeleton
import proofs.«140102_j72086731096588_1_alg».proof.Proof.MlpSpec
import proofs.«140102_j72086731096588_1_alg».proof.Proof.LibPlainMatmul
import Idealize.ShloMosaic.Lib.ValueLayout
import Idealize.ShloMosaic.Lib.Pipeline.Value

noncomputable section

open scoped BigOperators
open Idealize.ShloMosaic Idealize.ShloMosaic.TcCoe Idealize.ShloMosaic.ValueIdx

namespace Cert.KernelIdeal.PayloadValue

open Cert.KernelIdeal Cert.KernelIdeal.Gen

/-! ## The index maps of the two products' dimension numbers

Each record contracts the left operand's axis 1 with the right operand's axis 0, keeps the left operand's rows as the
result's axis 0 and the right operand's columns as the result's axis 1. -/

/-- The first product's left index keeps the result's row. -/
private theorem lhs_dotA_0 (i : S2000x256.Idx) (q : dot_S2000x20_S20x256_S2000x256_1_0_0_1_n_n.contr.Idx) :
    (dot_S2000x20_S20x256_S2000x256_1_0_0_1_n_n.lhsIdx i q 0).val = (i 0).val := by
  unfold DotDims.lhsIdx
  rw [dif_neg (show ¬(0 : Fin S2000x20.rank) ∈ dot_S2000x20_S20x256_S2000x256_1_0_0_1_n_n.lhsBatch by decide), dif_pos (show (0 : Fin S2000x20.rank) ∈ dot_S2000x20_S20x256_S2000x256_1_0_0_1_n_n.lhsNonContracting by decide)]
  rfl
/-- The first product's left index takes its column from the contraction index. -/
private theorem lhs_dotA_1 (i : S2000x256.Idx) (q : dot_S2000x20_S20x256_S2000x256_1_0_0_1_n_n.contr.Idx) :
    (dot_S2000x20_S20x256_S2000x256_1_0_0_1_n_n.lhsIdx i q 1).val = (q ⟨0, by decide⟩).val :=
  dot_S2000x20_S20x256_S2000x256_1_0_0_1_n_n.lhsIdx_val_of_single rfl i q
/-- The first product's right index takes its row from the contraction index. -/
private theorem rhs_dotA_0 (i : S2000x256.Idx) (q : dot_S2000x20_S20x256_S2000x256_1_0_0_1_n_n.contr.Idx) :
    (dot_S2000x20_S20x256_S2000x256_1_0_0_1_n_n.rhsIdx i q 0).val = (q ⟨0, by decide⟩).val :=
  dot_S2000x20_S20x256_S2000x256_1_0_0_1_n_n.rhsIdx_val_of_single rfl i q
/-- The first product's right index keeps the result's column. -/
private theorem rhs_dotA_1 (i : S2000x256.Idx) (q : dot_S2000x20_S20x256_S2000x256_1_0_0_1_n_n.contr.Idx) :
    (dot_S2000x20_S20x256_S2000x256_1_0_0_1_n_n.rhsIdx i q 1).val = (i 1).val := by
  unfold DotDims.rhsIdx
  rw [dif_neg (show ¬(1 : Fin S20x256.rank) ∈ dot_S2000x20_S20x256_S2000x256_1_0_0_1_n_n.rhsBatch by decide), dif_pos (show (1 : Fin S20x256.rank) ∈ dot_S2000x20_S20x256_S2000x256_1_0_0_1_n_n.rhsNonContracting by decide)]
  rfl

/-- The second product's left index keeps the result's row. -/
private theorem lhs_dotB_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The second product's left index takes its column from the contraction index. -/
private theorem lhs_dotB_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The second product's right index takes its row from the contraction index. -/
private theorem rhs_dotB_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The second product's right index keeps the result's column. -/
private theorem rhs_dotB_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## The two products into the zero accumulator, read at an entry -/

/-- The first product at `(p, k)`: the sum over the twenty contracted coordinates. -/
private theorem matmulA_apply {φ₁ φ₂ : FTy} (A : FVec Ideal S2000x20 φ₁) (B : FVec Ideal S20x256 φ₂) (p : Fin 2000) (k : Fin 256) :
    matmul dot_S2000x20_S20x256_S2000x256_1_0_0_1_n_n none A B (constant (F := Ideal) S2000x256 .f32 0x00000000#32) (ix2 p k)
      = ∑ l : Fin 20, A (ix2 p l) * B (ix2 l k) :=
  Cert.LibPlainMatmul.matmul_zero_apply dot_S2000x20_S20x256_S2000x256_1_0_0_1_n_n none rfl rfl
    lhs_dotA_0 lhs_dotA_1 rhs_dotA_0 rhs_dotA_1 A B p k

/-- The second product at `(p, o)`: the sum over the 256 contracted coordinates. -/
private theorem matmulB_apply {φ₁ φ₂ : FTy} (A : FVec Ideal S2000x256 φ₁) (B : FVec Ideal S256x256 φ₂) (p : Fin 2000) (o : Fin 256) :
    matmul dot_S2000x256_S256x256_S2000x256_1_0_0_1_n_n none A B (constant (F := Ideal) S2000x256 .f32 0x00000000#32) (ix2 p o)
      = ∑ k : Fin 256, A (ix2 p k) * B (ix2 k o) :=
  Cert.LibPlainMatmul.matmul_zero_apply dot_S2000x256_S256x256_S2000x256_1_0_0_1_n_n none rfl rfl
    lhs_dotB_0 lhs_dotB_1 rhs_dotB_0 rhs_dotB_1 A B p o

/-! ## A bias row spread over the block -/

/-- A vector of 256 entries made a one-row matrix and repeated over 2000 rows reads, at `(p, o)`, its entry `o`. -/
private theorem bias_apply (b : Vec Ideal S256 .f32) (p : Fin 2000) (o : Fin 256) :
    broadcastTo S2000x256 (shapeCast S1x256 b shapeCasts_S256_S1x256) broadcasts_S1x256_S2000x256 (ix2 p o)
      = b (ix1 o) :=
  (broadcastTo_1b_ab_apply _ broadcasts_S1x256_S2000x256 p o).trans
    (shapeCast_a_1a_apply b shapeCasts_S256_S1x256 (0 : Fin 1) o)

/-! ## One layer: a product into the zero accumulator plus a bias row, read at an entry

Narrowing the operands to sixteen bits does nothing on the extended reals, so a layer's entry `(p, k)` is the sum over
the contracted coordinate plus the bias entry `k`. -/

/-- The layer over twenty input features at `(p, k)`. -/
private theorem layerA_apply (X : Vec Ideal S2000x20 .f32) (W : Vec Ideal S20x256 .f32) (b : Vec Ideal S256 .f32)
    (p : Fin 2000) (k : Fin 256) :
    addf (matmul dot_S2000x20_S20x256_S2000x256_1_0_0_1_n_n none (truncf .bf16 X bitsLt_bf16_f32)
        (truncf .bf16 W bitsLt_bf16_f32) (constant (F := Ideal) S2000x256 .f32 0x00000000#32))
      (broadcastTo S2000x256 (shapeCast S1x256 b shapeCasts_S256_S1x256) broadcasts_S1x256_S2000x256) (ix2 p k)
      = Cert.Mlp.hid X W b p k := by
  refine (addf_apply _ _ _).trans ?_
  rw [matmulA_apply, bias_apply]
  rfl

/-- The layer over 256 input features at `(p, o)`. -/
private theorem layerB_apply (X : Vec Ideal S2000x256 .f32) (W : Vec Ideal S256x256 .f32) (b : Vec Ideal S256 .f32)
    (p : Fin 2000) (o : Fin 256) :
    addf (matmul dot_S2000x256_S256x256_S2000x256_1_0_0_1_n_n none (truncf .bf16 X bitsLt_bf16_f32)
        (truncf .bf16 W bitsLt_bf16_f32) (constant (F := Ideal) S2000x256 .f32 0x00000000#32))
      (broadcastTo S2000x256 (shapeCast S1x256 b shapeCasts_S256_S1x256) broadcasts_S1x256_S2000x256) (ix2 p o)
      = Cert.Mlp.hid X W b p o := by
  refine (addf_apply _ _ _).trans ?_
  rw [matmulB_apply, bias_apply]
  rfl

/-- A layer's output times its logistic, entry by entry, is the SiLU of the layer's entry. -/
private theorem silu_entry (H : FVec Ideal S2000x256 .f32) (p : Fin 2000) (k : Fin 256) :
    mulf H (logistic H) (ix2 p k) = Cert.Mlp.silu (H (ix2 p k)) :=
  Cert.Mlp.silu_logistic (H (ix2 p k))

/-- The second layer over a hidden block `Z` whose entries are the SiLU of the first layer's: the network's output. -/
private theorem out_apply {R K : ℕ} (X : FVec Ideal ⟨2, ![R, K]⟩ .f32) (W1 : FVec Ideal ⟨2, ![K, 256]⟩ .f32)
    (b1 : FVec Ideal S256 .f32) (W2 : Vec Ideal S256x256 .f32) (b2 : Vec Ideal S256 .f32)
    (Z : Vec Ideal S2000x256 .f32) (p : Fin 2000) (e : Fin R) (o : Fin 256)
    (hZ : ∀ k : Fin 256, Z (ix2 p k) = Cert.Mlp.silu (Cert.Mlp.hid X W1 b1 e k)) :
    Cert.Mlp.hid Z W2 b2 p o = Cert.Mlp.mlp X W1 b1 W2 b2 e o := by
  unfold Cert.Mlp.hid Cert.Mlp.mlp
  exact congrArg (· + b2 (ix1 o)) (Finset.sum_congr rfl fun k _ => congrArg (· * W2 (ix2 k o)) (hZ k))

/-! ## The two bodies' stored blocks -/

/-- Entry `(p, o)` of what the filter body stores: the loaded block `v19` at `(p, o)` times the network's output for
    row `p` of the loaded block `v0`. -/
theorem k0_pay1_apply (v0 : Vec Ideal S2000x20 .f32) (v2 : Vec Ideal S20x256 .f32) (v5 : Vec Ideal S256 .f32)
    (v11 : Vec Ideal S256x256 .f32) (v15 : Vec Ideal S256 .f32) (v19 : Vec Ideal S2000x256 .f32)
    (p : Fin 2000) (o : Fin 256) :
    k0_pay1 (F := Ideal) v0 v2 v5 v11 v15 v19 (ix2 p o) = v19 (ix2 p o) * Cert.Mlp.mlp v0 v2 v5 v11 v15 p o := by
  unfold k0_pay1
  refine (mulf_apply _ _ _).trans ?_
  refine congrArg₂ (· * ·) (congrFun (shapeCast_self v19 shapeCasts_S2000x256_S2000x256) (ix2 p o)) ?_
  refine (layerB_apply _ v11 v15 p o).trans ?_
  refine out_apply v0 v2 v5 v11 v15 _ p p o fun k => ?_
  refine (silu_entry _ p k).trans ?_
  exact congrArg Cert.Mlp.silu (layerA_apply v0 v2 v5 p k)

/-- Entry `(p, o)` of what the update body stores: the network's output for row `p` of the loaded block `v0`. -/
theorem k1_pay1_apply (v0 : Vec Ideal S2000x256 .f32) (v3 : Vec Ideal S256x256 .f32) (v6 : Vec Ideal S256 .f32)
    (v12 : Vec Ideal S256x256 .f32) (v16 : Vec Ideal S256 .f32) (p : Fin 2000) (o : Fin 256) :
    k1_pay1 (F := Ideal) v0 v3 v6 v12 v16 (ix2 p o) = Cert.Mlp.mlp v0 v3 v6 v12 v16 p o := by
  unfold k1_pay1
  rw [shapeCast_self v0 shapeCasts_S2000x256_S2000x256]
  refine (layerB_apply _ v12 v16 p o).trans ?_
  refine out_apply v0 v3 v6 v12 v16 _ p p o fun k => ?_
  refine (silu_entry _ p k).trans ?_
  exact congrArg Cert.Mlp.silu (layerB_apply v0 v3 v6 p k)

end Cert.KernelIdeal.PayloadValue

end
-- ==== Proof.Region0.lean ====
/-
  The first region's output array after its run, as one function of the arrays it finds at its entry.

  The grid has 160 points; point `t` reads rows 2000·t … 2000·t + 1999 of the two row-blocked inputs and the whole of
  the four weight arrays, and writes the same rows of the output. The blocks are disjoint and fill the array, and row `e`
  of the network's output reads row `e` of its input only, so the array ends at `msgSpec` of the entry arrays.
-/
import proofs.«140102_j72086731096588_1_alg».proof.Proof.Gen.KernelIdeal.Frame
import proofs.«140102_j72086731096588_1_alg».proof.Proof.Payload
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Region0Value

open Cert.KernelIdeal Cert.KernelIdeal.Gen

variable (V : (c : Dev nD) → (b : Ref sig .tc) → Buf (Elt Ideal) ((c : Thread nD τ).loc b))

/-- The zero offsets of a rank-2 whole-block rectangle, as a constant function. -/
private theorem zeroOffsets2 : (![0, 0] : Fin 2 → Nat) = fun _ => 0 := funext fun a => by fin_cases a <;> rfl
/-- The zero offset of a rank-1 whole-block rectangle, as a constant function. -/
private theorem zeroOffsets1 : (![0] : Fin 1 → Nat) = fun _ => 0 := funext fun a => by fin_cases a; rfl

/-- The windows' block indices at every grid point: the two row-blocked inputs sit at the output's row block and at
    column block 0; the four weight arrays sit at block 0 on every axis; the output's row block is one of the 160 and its
    column block is 0. -/
private theorem blockIndices : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) ≤ 159 ∧ win0_6.index t (1 : Fin 2) = 0 :=
  (by decide +kernel : ∀ t : Fin grid0.N, _)

/-- Every one of the 160 row blocks of the output is some point's. -/
private theorem blockIndex_onto : ∀ q : Fin 160, ∃ t : Fin cfg0.N, win0_6.index t = ![q.val, 0] :=
  (by decide +kernel : ∀ q : Fin 160, ∃ t : Fin grid0.N, win0_6.index t = ![q.val, 0])

private theorem blockRow_lt (t : Fin cfg0.N) (p : Fin 2000) : win0_6.index t (0 : Fin 2) * 2000 + p.val < 320000 := by
  obtain ⟨-, -, -, -, -, -, -, -, -, -, h, -⟩ := blockIndices t
  have := p.isLt
  omega

/-- The row of the array that row `p` of point `t`'s block is: 2000 times the block index, plus `p`. -/
private def blockRow (t : Fin cfg0.N) (p : Fin 2000) : Fin 320000 :=
  ⟨win0_6.index t (0 : Fin 2) * 2000 + p.val, blockRow_lt t p⟩

/-- Entry `(p, o)` of the output's block at point `t` is entry `(blockRow t p, o)` of the output array. -/
private theorem outBlock_emb (t : Fin cfg0.N) (p : Fin 2000) (o : Fin 256) :
    ((cfg0.win 6).blk t).view.emb (ix2 p o) = ix2 (blockRow t p) o := by
  obtain ⟨-, -, -, -, -, -, -, -, -, -, -, h⟩ := blockIndices t
  funext a; apply Fin.ext
  match a with
  | ⟨0, _⟩ => show win0_6.index t (0 : Fin 2) * 2000 + 1 * p.val = win0_6.index t (0 : Fin 2) * 2000 + p.val; omega
  | ⟨1, _⟩ => show win0_6.index t (1 : Fin 2) * 256 + 1 * o.val = o.val; omega

/-- Entry `(p, o)` of the multiplier's block at point `t` is entry `(blockRow t p, o)` of its array. -/
private theorem gateBlock_emb (t : Fin cfg0.N) (p : Fin 2000) (o : Fin 256) :
    ((cfg0.win 1).blk t).view.emb (ix2 p o) = ix2 (blockRow t p) o := by
  obtain ⟨-, -, h0, h1, -⟩ := blockIndices t
  funext a; apply Fin.ext
  match a with
  | ⟨0, _⟩ => show win0_1.index t (0 : Fin 2) * 2000 + 1 * p.val = win0_6.index t (0 : Fin 2) * 2000 + p.val; omega
  | ⟨1, _⟩ => show win0_1.index t (1 : Fin 2) * 256 + 1 * o.val = o.val; omega

/-- Entry `(p, l)` of the network input's block at point `t` is entry `(blockRow t p, l)` of its array. -/
private theorem rowsBlock_emb (t : Fin cfg0.N) (p : Fin 2000) (l : Fin 20) :
    ((cfg0.win 0).blk t).view.emb (ix2 p l) = ix2 (blockRow t p) l := by
  obtain ⟨h0, h1, -⟩ := blockIndices t
  funext a; apply Fin.ext
  match a with
  | ⟨0, _⟩ => show win0_0.index t (0 : Fin 2) * 2000 + 1 * p.val = win0_6.index t (0 : Fin 2) * 2000 + p.val; omega
  | ⟨1, _⟩ => show win0_0.index t (1 : Fin 2) * 20 + 1 * l.val = l.val; omega

/-- The multiplier's block at point `t`, read at `(p, o)`. -/
private theorem gateBlock_apply (c : Dev nD) (t : Fin cfg0.N) (p : Fin 2000) (o : Fin 256) :
    iblk0 V c 1 t (ix2 p o) = V c main_v10 (ix2 (blockRow t p) o) :=
  congrArg (V c main_v10) (gateBlock_emb t p o)

/-- The network input's block at point `t`, read at `(p, l)`. -/
private theorem rowsBlock_apply (c : Dev nD) (t : Fin cfg0.N) (p : Fin 2000) (l : Fin 20) :
    iblk0 V c 0 t (ix2 p l) = V c main_arg1 (ix2 (blockRow t p) l) :=
  congrArg (V c main_arg1) (rowsBlock_emb t p l)

/-- The first weight matrix's block is the whole matrix at every point. -/
private theorem w1Block (c : Dev nD) (t : Fin cfg0.N) : iblk0 V c 2 t = V c main_arg2 := by
  obtain ⟨-, -, -, -, h0, h1, -⟩ := blockIndices t
  funext j
  refine congrArg (V c main_arg2) ?_
  funext a; apply Fin.ext
  match a with
  | ⟨0, _⟩ => show win0_2.index t (0 : Fin 2) * 20 + 1 * (j 0).val = (j 0).val; omega
  | ⟨1, _⟩ => show win0_2.index t (1 : Fin 2) * 256 + 1 * (j 1).val = (j 1).val; omega

/-- The first bias row's block is the whole row at every point. -/
private theorem b1Block (c : Dev nD) (t : Fin cfg0.N) : iblk0 V c 3 t = V c main_arg3 := by
  obtain ⟨-, -, -, -, -, -, h0, -⟩ := blockIndices t
  funext j
  refine congrArg (V c main_arg3) ?_
  funext a; apply Fin.ext
  match a with
  | ⟨0, _⟩ => show win0_3.index t (0 : Fin 1) * 256 + 1 * (j 0).val = (j 0).val; omega

/-- The second weight matrix's block is the whole matrix at every point. -/
private theorem w2Block (c : Dev nD) (t : Fin cfg0.N) : iblk0 V c 4 t = V c main_arg4 := by
  obtain ⟨-, -, -, -, -, -, -, h0, h1, -⟩ := blockIndices t
  funext j
  refine congrArg (V c main_arg4) ?_
  funext a; apply Fin.ext
  match a with
  | ⟨0, _⟩ => show win0_4.index t (0 : Fin 2) * 256 + 1 * (j 0).val = (j 0).val; omega
  | ⟨1, _⟩ => show win0_4.index t (1 : Fin 2) * 256 + 1 * (j 1).val = (j 1).val; omega

/-- The second bias row's block is the whole row at every point. -/
private theorem b2Block (c : Dev nD) (t : Fin cfg0.N) : iblk0 V c 5 t = V c main_arg5 := by
  obtain ⟨-, -, -, -, -, -, -, -, -, h0, -⟩ := blockIndices t
  funext j
  refine congrArg (V c main_arg5) ?_
  funext a; apply Fin.ext
  match a with
  | ⟨0, _⟩ => show win0_5.index t (0 : Fin 1) * 256 + 1 * (j 0).val = (j 0).val; omega

/-- What point `t` writes back is block `t` of `msgSpec` of the entry arrays: entry `(p, o)` of the body's store is the
    multiplier's entry times the network's output for row `p` of the input block, that row is row `blockRow t p` of the
    input array, and the network's output for a row reads that row of the input only. -/
private theorem flushedBlock (c : Dev nD) (t : Fin cfg0.N) :
    (dat0 (F := Ideal) V c).flushed 6 t = ((cfg0.win 6).blk t).view.read (Elt Ideal)
      (Cert.Mlp.msgSpec (V c main_v10) (V c main_arg1) (V c main_arg2) (V c main_arg3) (V c main_arg4) (V c main_arg5)) := by
  show (cfg0.win 6).cut (grid0.coords t) ((dat0 V c).after 6 t) = _
  rw [after0_6]
  unfold out0_6
  rw [View.canon_unit_zero zeroOffsets2]
  simp only [View.ld_unit_zero (S := S2000x20) zeroOffsets2, View.ld_unit_zero (S := S20x256) zeroOffsets2,
    View.ld_unit_zero (S := S256) zeroOffsets1, View.ld_unit_zero (S := S256x256) zeroOffsets2,
    View.ld_unit_zero (S := S2000x256) zeroOffsets2]
  rw [w1Block V c t, b1Block V c t, w2Block V c t, b2Block V c t]
  funext j
  obtain ⟨p, o, rfl⟩ : ∃ (p : Fin 2000) (o : Fin 256), j = ix2 p o := ⟨j 0, j 1, eq_ix2 j⟩
  show k0_pay1 (F := Ideal) (iblk0 V c 0 t) (V c main_arg2) (V c main_arg3) (V c main_arg4) (V c main_arg5) (iblk0 V c 1 t) (ix2 p o)
    = Cert.Mlp.msgSpec (V c main_v10) (V c main_arg1) (V c main_arg2) (V c main_arg3) (V c main_arg4) (V c main_arg5)
        (((cfg0.win 6).blk t).view.emb (ix2 p o))
  refine (Cert.KernelIdeal.PayloadValue.k0_pay1_apply _ _ _ _ _ _ p o).trans ?_
  refine Eq.trans ?_ (congrArg (Cert.Mlp.msgSpec (V c main_v10) (V c main_arg1) (V c main_arg2) (V c main_arg3) (V c main_arg4) (V c main_arg5)) (outBlock_emb t p o)).symm
  refine Eq.trans ?_ (Cert.Mlp.msgSpec_apply _ _ _ _ _ _ (blockRow t p) o).symm
  rw [gateBlock_apply V c t p o]
  exact congrArg (HMul.hMul _)
    (Cert.Mlp.mlp_congr_row _ _ _ _ _ _ p (blockRow t p) (fun l => rowsBlock_apply V c t p l) o)

/-- An index of the output array is in point `t`'s block iff each coordinate is in the block's range on its axis. -/
private theorem mem_outBlock (t : Fin cfg0.N) (i : S320000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v11).slice (win0_6.rect t)).set ↔ _
  rw [View.set_slice_whole, Rect.mem_set_unit]
  exact Iff.rfl

/-- Every index of the output array is in some point's block: row `r` is in row block `r / 2000`, and the one column
    block holds all 256 columns. -/
private theorem covered (i : S320000x256.Idx) :
    ∃ t : Fin cfg0.N, (cfg0.win 6).flush t = true ∧ i ∈ ((cfg0.win 6).blk t).view.set := by
  have hi0 : (i 0).val < 320000 := (i 0).isLt
  have hi1 : (i 1).val < 256 := (i 1).isLt
  obtain ⟨t, ht⟩ := blockIndex_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_outBlock]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

theorem region0_array (c : Dev nD) :
    (dat0 (F := Ideal) V c).arrAt 6 cfg0.N = Cert.Mlp.msgSpec (V c main_v10) (V c main_arg1) (V c main_arg2) (V c main_arg3) (V c main_arg4) (V c main_arg5) :=
  (dat0 V c).arrAt_eq_of_cover 6
    (Cert.Mlp.msgSpec (V c main_v10) (V c main_arg1) (V c main_arg2) (V c main_arg3) (V c main_arg4) (V c main_arg5))
    (fun t _ => flushedBlock V c t) covered

end Cert.KernelIdeal.Region0Value

end
-- ==== Proof.Region1.lean ====
/-
  The second region's output array after its run, as one function of the arrays it finds at its entry.

  The grid has 5 points; point `t` reads rows 2000·t … 2000·t + 1999 of the row-blocked input and the whole of the four
  weight arrays, and writes the same rows of the output. The blocks are disjoint and fill the array, and row `e` of the
  network's output reads row `e` of its input only, so the array ends at `updSpec` of the entry arrays.
-/
import proofs.«140102_j72086731096588_1_alg».proof.Proof.Gen.KernelIdeal.Frame
import proofs.«140102_j72086731096588_1_alg».proof.Proof.Payload
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Region1Value

open Cert.KernelIdeal Cert.KernelIdeal.Gen

variable (V : (c : Dev nD) → (b : Ref sig .tc) → Buf (Elt Ideal) ((c : Thread nD τ).loc b))

/-- The zero offsets of a rank-2 whole-block rectangle, as a constant function. -/
private theorem zeroOffsets2 : (![0, 0] : Fin 2 → Nat) = fun _ => 0 := funext fun a => by fin_cases a <;> rfl
/-- The zero offset of a rank-1 whole-block rectangle, as a constant function. -/
private theorem zeroOffsets1 : (![0] : Fin 1 → Nat) = fun _ => 0 := funext fun a => by fin_cases a; rfl

/-- The windows' block indices at every grid point: the row-blocked input sits at the output's row block and at column
    block 0; the four weight arrays sit at block 0 on every axis; the output's row block is one of the 5 and its column
    block is 0. -/
private theorem blockIndices : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) ≤ 4 ∧ win1_5.index t (1 : Fin 2) = 0 :=
  (by decide +kernel : ∀ t : Fin grid1.N, _)

/-- Every one of the 5 row blocks of the output is some point's. -/
private theorem blockIndex_onto : ∀ q : Fin 5, ∃ t : Fin cfg1.N, win1_5.index t = ![q.val, 0] :=
  (by decide +kernel : ∀ q : Fin 5, ∃ t : Fin grid1.N, win1_5.index t = ![q.val, 0])

private theorem blockRow_lt (t : Fin cfg1.N) (p : Fin 2000) : win1_5.index t (0 : Fin 2) * 2000 + p.val < 10000 := by
  obtain ⟨-, -, -, -, -, -, -, -, h, -⟩ := blockIndices t
  have := p.isLt
  omega

/-- The row of the array that row `p` of point `t`'s block is: 2000 times the block index, plus `p`. -/
private def blockRow (t : Fin cfg1.N) (p : Fin 2000) : Fin 10000 :=
  ⟨win1_5.index t (0 : Fin 2) * 2000 + p.val, blockRow_lt t p⟩

/-- Entry `(p, o)` of the output's block at point `t` is entry `(blockRow t p, o)` of the output array. -/
private theorem outBlock_emb (t : Fin cfg1.N) (p : Fin 2000) (o : Fin 256) :
    ((cfg1.win 5).blk t).view.emb (ix2 p o) = ix2 (blockRow t p) o := by
  obtain ⟨-, -, -, -, -, -, -, -, -, h⟩ := blockIndices t
  funext a; apply Fin.ext
  match a with
  | ⟨0, _⟩ => show win1_5.index t (0 : Fin 2) * 2000 + 1 * p.val = win1_5.index t (0 : Fin 2) * 2000 + p.val; omega
  | ⟨1, _⟩ => show win1_5.index t (1 : Fin 2) * 256 + 1 * o.val = o.val; omega

/-- Entry `(p, l)` of the network input's block at point `t` is entry `(blockRow t p, l)` of its array. -/
private theorem rowsBlock_emb (t : Fin cfg1.N) (p : Fin 2000) (l : Fin 256) :
    ((cfg1.win 0).blk t).view.emb (ix2 p l) = ix2 (blockRow t p) l := by
  obtain ⟨h0, h1, -⟩ := blockIndices t
  funext a; apply Fin.ext
  match a with
  | ⟨0, _⟩ => show win1_0.index t (0 : Fin 2) * 2000 + 1 * p.val = win1_5.index t (0 : Fin 2) * 2000 + p.val; omega
  | ⟨1, _⟩ => show win1_0.index t (1 : Fin 2) * 256 + 1 * l.val = l.val; omega

/-- The network input's block at point `t`, read at `(p, l)`. -/
private theorem rowsBlock_apply (c : Dev nD) (t : Fin cfg1.N) (p : Fin 2000) (l : Fin 256) :
    iblk1 V c 0 t (ix2 p l) = V c main_v14 (ix2 (blockRow t p) l) :=
  congrArg (V c main_v14) (rowsBlock_emb t p l)

/-- The first weight matrix's block is the whole matrix at every point. -/
private theorem w1Block (c : Dev nD) (t : Fin cfg1.N) : iblk1 V c 1 t = V c main_arg6 := by
  obtain ⟨-, -, h0, h1, -⟩ := blockIndices t
  funext j
  refine congrArg (V c main_arg6) ?_
  funext a; apply Fin.ext
  match a with
  | ⟨0, _⟩ => show win1_1.index t (0 : Fin 2) * 256 + 1 * (j 0).val = (j 0).val; omega
  | ⟨1, _⟩ => show win1_1.index t (1 : Fin 2) * 256 + 1 * (j 1).val = (j 1).val; omega

/-- The first bias row's block is the whole row at every point. -/
private theorem b1Block (c : Dev nD) (t : Fin cfg1.N) : iblk1 V c 2 t = V c main_arg7 := by
  obtain ⟨-, -, -, -, h0, -⟩ := blockIndices t
  funext j
  refine congrArg (V c main_arg7) ?_
  funext a; apply Fin.ext
  match a with
  | ⟨0, _⟩ => show win1_2.index t (0 : Fin 1) * 256 + 1 * (j 0).val = (j 0).val; omega

/-- The second weight matrix's block is the whole matrix at every point. -/
private theorem w2Block (c : Dev nD) (t : Fin cfg1.N) : iblk1 V c 3 t = V c main_arg8 := by
  obtain ⟨-, -, -, -, -, h0, h1, -⟩ := blockIndices t
  funext j
  refine congrArg (V c main_arg8) ?_
  funext a; apply Fin.ext
  match a with
  | ⟨0, _⟩ => show win1_3.index t (0 : Fin 2) * 256 + 1 * (j 0).val = (j 0).val; omega
  | ⟨1, _⟩ => show win1_3.index t (1 : Fin 2) * 256 + 1 * (j 1).val = (j 1).val; omega

/-- The second bias row's block is the whole row at every point. -/
private theorem b2Block (c : Dev nD) (t : Fin cfg1.N) : iblk1 V c 4 t = V c main_arg9 := by
  obtain ⟨-, -, -, -, -, -, -, h0, -⟩ := blockIndices t
  funext j
  refine congrArg (V c main_arg9) ?_
  funext a; apply Fin.ext
  match a with
  | ⟨0, _⟩ => show win1_4.index t (0 : Fin 1) * 256 + 1 * (j 0).val = (j 0).val; omega

/-- What point `t` writes back is block `t` of `updSpec` of the entry arrays: entry `(p, o)` of the body's store is the
    network's output for row `p` of the input block, that row is row `blockRow t p` of the input array, and the network's
    output for a row reads that row of the input only. -/
private theorem flushedBlock (c : Dev nD) (t : Fin cfg1.N) :
    (dat1 (F := Ideal) V c).flushed 5 t = ((cfg1.win 5).blk t).view.read (Elt Ideal)
      (Cert.Mlp.updSpec (V c main_v14) (V c main_arg6) (V c main_arg7) (V c main_arg8) (V c main_arg9)) := by
  show (cfg1.win 5).cut (grid1.coords t) ((dat1 V c).after 5 t) = _
  rw [after1_5]
  unfold out1_5
  rw [View.canon_unit_zero zeroOffsets2]
  simp only [View.ld_unit_zero (S := S2000x256) zeroOffsets2, View.ld_unit_zero (S := S256x256) zeroOffsets2,
    View.ld_unit_zero (S := S256) zeroOffsets1]
  rw [w1Block V c t, b1Block V c t, w2Block V c t, b2Block V c t]
  funext j
  obtain ⟨p, o, rfl⟩ : ∃ (p : Fin 2000) (o : Fin 256), j = ix2 p o := ⟨j 0, j 1, eq_ix2 j⟩
  show k1_pay1 (F := Ideal) (iblk1 V c 0 t) (V c main_arg6) (V c main_arg7) (V c main_arg8) (V c main_arg9) (ix2 p o)
    = Cert.Mlp.updSpec (V c main_v14) (V c main_arg6) (V c main_arg7) (V c main_arg8) (V c main_arg9)
        (((cfg1.win 5).blk t).view.emb (ix2 p o))
  refine (Cert.KernelIdeal.PayloadValue.k1_pay1_apply _ _ _ _ _ p o).trans ?_
  refine Eq.trans ?_ (congrArg (Cert.Mlp.updSpec (V c main_v14) (V c main_arg6) (V c main_arg7) (V c main_arg8) (V c main_arg9)) (outBlock_emb t p o)).symm
  refine Eq.trans ?_ (Cert.Mlp.updSpec_apply _ _ _ _ _ (blockRow t p) o).symm
  exact Cert.Mlp.mlp_congr_row _ _ _ _ _ _ p (blockRow t p) (fun l => rowsBlock_apply V c t p l) o

/-- An index of the output array is in point `t`'s block iff each coordinate is in the block's range on its axis. -/
private theorem mem_outBlock (t : Fin cfg1.N) (i : S10000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v15).slice (win1_5.rect t)).set ↔ _
  rw [View.set_slice_whole, Rect.mem_set_unit]
  exact Iff.rfl

/-- Every index of the output array is in some point's block: row `r` is in row block `r / 2000`, and the one column
    block holds all 256 columns. -/
private theorem covered (i : S10000x256.Idx) :
    ∃ t : Fin cfg1.N, (cfg1.win 5).flush t = true ∧ i ∈ ((cfg1.win 5).blk t).view.set := by
  have hi0 : (i 0).val < 10000 := (i 0).isLt
  have hi1 : (i 1).val < 256 := (i 1).isLt
  obtain ⟨t, ht⟩ := blockIndex_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_outBlock]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

theorem region1_array (c : Dev nD) :
    (dat1 (F := Ideal) V c).arrAt 5 cfg1.N = Cert.Mlp.updSpec (V c main_v14) (V c main_arg6) (V c main_arg7) (V c main_arg8) (V c main_arg9) :=
  (dat1 V c).arrAt_eq_of_cover 5
    (Cert.Mlp.updSpec (V c main_v14) (V c main_arg6) (V c main_arg7) (V c main_arg8) (V c main_arg9))
    (fun t _ => flushedBlock V c t) covered

end Cert.KernelIdeal.Region1Value

end
-- ==== Proof.RefStages.lean ====
/-
  The reference's two networks as arrays, over the extended reals.

  The reference computes the filter network on all 320000 rows at once and the update network on all 10000 rows at
  once, each as two `dot_general`s with a broadcast bias added and `x · (1 / (1 + e^(-x)))` between them. Read at an
  entry, a `dot_general` with one contracted axis is the sum over that axis, and the spelt-out logistic is the
  logistic, so each stage is `mlp` of its operands, entry by entry.
-/
import proofs.«140102_j72086731096588_1_alg».proof.Proof.Gen.ReferenceIdeal.Read
import proofs.«140102_j72086731096588_1_alg».proof.Proof.MlpSpec

noncomputable section

open scoped BigOperators
open Idealize.ShloMosaic Idealize.ShloMosaic.TcCoe Idealize.ShloMosaic.ValueIdx

namespace Cert.ReferenceIdeal.RefStages

open Cert.ReferenceIdeal Cert.ReferenceIdeal.Read

/-! ### The network from its entries

If `pre k` is the first layer's sum plus its bias (`hid`) and `act k` is `pre k · (1 / (1 + e^(-pre k)))` in the host's
operations, then the second layer's sum of `act k · W2 (k, o)` plus its bias is `mlp` at `(e, o)`. -/

private theorem mlp_of_entries {R K H O : ℕ} (X : FVec Ideal ⟨2, ![R, K]⟩ .f32) (W1 : FVec Ideal ⟨2, ![K, H]⟩ .f32)
    (b1 : FVec Ideal ⟨1, ![H]⟩ .f32) (W2 : FVec Ideal ⟨2, ![H, O]⟩ .f32) (b2 : FVec Ideal ⟨1, ![O]⟩ .f32)
    (e : Fin R) (o : Fin O) (pre act : Fin H → Ideal .f32)
    (hpre : ∀ k, pre k = Cert.Mlp.hid X W1 b1 e k)
    (hact : ∀ k, act k = FloatOps.mulf (pre k) (FloatOps.hostDivf (Ideal.ofBits .f32 0x3F800000#32)
      (FloatOps.addf (Ideal.ofBits .f32 0x3F800000#32) (FloatOps.hostUnary .exp (FloatOps.hostNegf (pre k)))))) :
    FloatOps.addf (∑ k : Fin H, act k * W2 (ix2 k o)) (b2 (ix1 o)) = Cert.Mlp.mlp X W1 b1 W2 b2 e o := by
  unfold Cert.Mlp.mlp
  refine congrArg (· + b2 (ix1 o)) (Finset.sum_congr rfl fun k _ => ?_)
  rw [hact k, Cert.Mlp.silu_expanded, hpre k]

/-! ### The filter network: index equations at `(e, o)` -/

private theorem lidx4 (e : Fin 320000) (o : Fin 256) (k : Fin 20) : lidx_main_v4 (ix2 e o) k = ix2 e k :=
  funext fun a => Fin.ext (by match a with | ⟨0, _⟩ => rfl | ⟨1, _⟩ => rfl)
private theorem ridx4 (e : Fin 320000) (o : Fin 256) (k : Fin 20) : ridx_main_v4 (ix2 e o) k = ix2 k o :=
  funext fun a => Fin.ext (by match a with | ⟨0, _⟩ => rfl | ⟨1, _⟩ => rfl)
private theorem bidx6 (e : Fin 320000) (o : Fin 256) : idx_main_v5 (idx_main_v6 (ix2 e o)) = ix1 o :=
  funext fun a => Fin.ext (by match a with | ⟨0, _⟩ => rfl)
private theorem lidx9 (e : Fin 320000) (o k : Fin 256) : lidx_main_v9 (ix2 e o) k = ix2 e k :=
  funext fun a => Fin.ext (by match a with | ⟨0, _⟩ => rfl | ⟨1, _⟩ => rfl)
private theorem ridx9 (e : Fin 320000) (o k : Fin 256) : ridx_main_v9 (ix2 e o) k = ix2 k o :=
  funext fun a => Fin.ext (by match a with | ⟨0, _⟩ => rfl | ⟨1, _⟩ => rfl)
private theorem bidx11 (e : Fin 320000) (o : Fin 256) : idx_main_v10 (idx_main_v11 (ix2 e o)) = ix1 o :=
  funext fun a => Fin.ext (by match a with | ⟨0, _⟩ => rfl)

/-- The filter network's hidden stage before the activation, at `(e, k)`. -/
private theorem pre_filt (x1 : (⟨S320000x20, .f32⟩ : BufTy).Contents (Elt Ideal)) (x2 : (⟨S20x256, .f32⟩ : BufTy).Contents (Elt Ideal)) (x3 : (⟨S256, .f32⟩ : BufTy).Contents (Elt Ideal)) (e : Fin 320000) (k : Fin 256) :
    val_main_v7 (F := Ideal) x1 x2 x3 (ix2 e k) = Cert.Mlp.hid x1 x2 x3 e k := by
  rw [val_main_v7_apply, val_main_v4_apply, val_main_v6_apply, val_main_v5_apply, bidx6]
  unfold Cert.Mlp.hid
  exact congrArg (· + x3 (ix1 k)) (Finset.sum_congr rfl fun l _ => by rw [lidx4, ridx4])

/-- The filter network's hidden stage after the activation, at `(e, k)`: the logistic is spelt out. -/
private theorem act_filt (x1 : (⟨S320000x20, .f32⟩ : BufTy).Contents (Elt Ideal)) (x2 : (⟨S20x256, .f32⟩ : BufTy).Contents (Elt Ideal)) (x3 : (⟨S256, .f32⟩ : BufTy).Contents (Elt Ideal)) (e : Fin 320000) (k : Fin 256) :
    val_main_v8 (F := Ideal) x1 x2 x3 (ix2 e k)
      = FloatOps.mulf (val_main_v7 (F := Ideal) x1 x2 x3 (ix2 e k)) (FloatOps.hostDivf (Ideal.ofBits .f32 0x3F800000#32)
          (FloatOps.addf (Ideal.ofBits .f32 0x3F800000#32)
            (FloatOps.hostUnary .exp (FloatOps.hostNegf (val_main_v7 (F := Ideal) x1 x2 x3 (ix2 e k)))))) := by
  rw [val_main_v8_apply, val_main_call0_v5_apply, val_main_call0_v4_apply, val_main_call0_cst_0_apply,
    val_main_call0_v3_apply, val_main_call0_v2_apply, val_main_call0_cst_apply, val_main_call0_v1_apply,
    val_main_call0_v0_apply]
  rfl

/-- The filter stage (the second layer's sum plus its bias) is the network of the edge features. -/
theorem filt_eq (x1 : (⟨S320000x20, .f32⟩ : BufTy).Contents (Elt Ideal)) (x2 : (⟨S20x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) :
    val_main_v12 (F := Ideal) x1 x2 x3 x4 x5 = Cert.Mlp.updSpec x1 x2 x3 x4 x5 := by
  funext i
  obtain ⟨e, o, rfl⟩ : ∃ (e : Fin 320000) (o : Fin 256), i = ix2 e o := ⟨i 0, i 1, eq_ix2 i⟩
  rw [Cert.Mlp.updSpec_apply, val_main_v12_apply, val_main_v9_apply, val_main_v11_apply, val_main_v10_apply, bidx11]
  refine Eq.trans ?_ (mlp_of_entries x1 x2 x3 x4 x5 e o (fun k => val_main_v7 (F := Ideal) x1 x2 x3 (ix2 e k))
      (fun k => val_main_v8 (F := Ideal) x1 x2 x3 (ix2 e k)) (pre_filt x1 x2 x3 e) (act_filt x1 x2 x3 e))
  exact congrArg (fun s : Ideal .f32 => FloatOps.addf s (x5 (ix1 o)))
    (Finset.sum_congr rfl fun k _ => by rw [lidx9, ridx9])

/-- The message stage: the gathered rows times the filter, entry by entry. -/
theorem msg_eq (x0 : (⟨S10000x256, .f32⟩ : BufTy).Contents (Elt Ideal)) (x1 : (⟨S320000x20, .f32⟩ : BufTy).Contents (Elt Ideal)) (x2 : (⟨S20x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (x12 : (⟨S2x320000, .i32⟩ : BufTy).Contents (Elt Ideal)) :
    val_main_v20 (F := Ideal) x0 x1 x2 x3 x4 x5 x12 = Cert.Mlp.msgSpec (val_main_v19 (F := Ideal) x0 x12) x1 x2 x3 x4 x5 := by
  funext i
  rw [val_main_v20_apply, filt_eq]
  rfl

/-! ### The update network: index equations at `(e, o)` -/

private theorem lidx24 (e : Fin 10000) (o k : Fin 256) : lidx_main_v24 (ix2 e o) k = ix2 e k :=
  funext fun a => Fin.ext (by match a with | ⟨0, _⟩ => rfl | ⟨1, _⟩ => rfl)
private theorem ridx24 (e : Fin 10000) (o k : Fin 256) : ridx_main_v24 (ix2 e o) k = ix2 k o :=
  funext fun a => Fin.ext (by match a with | ⟨0, _⟩ => rfl | ⟨1, _⟩ => rfl)
private theorem bidx26 (e : Fin 10000) (o : Fin 256) : idx_main_v25 (idx_main_v26 (ix2 e o)) = ix1 o :=
  funext fun a => Fin.ext (by match a with | ⟨0, _⟩ => rfl)
private theorem lidx29 (e : Fin 10000) (o k : Fin 256) : lidx_main_v29 (ix2 e o) k = ix2 e k :=
  funext fun a => Fin.ext (by match a with | ⟨0, _⟩ => rfl | ⟨1, _⟩ => rfl)
private theorem ridx29 (e : Fin 10000) (o k : Fin 256) : ridx_main_v29 (ix2 e o) k = ix2 k o :=
  funext fun a => Fin.ext (by match a with | ⟨0, _⟩ => rfl | ⟨1, _⟩ => rfl)
private theorem bidx31 (e : Fin 10000) (o : Fin 256) : idx_main_v30 (idx_main_v31 (ix2 e o)) = ix1 o :=
  funext fun a => Fin.ext (by match a with | ⟨0, _⟩ => rfl)

/-- The update network's hidden stage before the activation, at `(e, k)`; its input is the aggregated messages. -/
private theorem pre_upd (x0 : (⟨S10000x256, .f32⟩ : BufTy).Contents (Elt Ideal)) (x1 : (⟨S320000x20, .f32⟩ : BufTy).Contents (Elt Ideal)) (x2 : (⟨S20x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) (x12 : (⟨S2x320000, .i32⟩ : BufTy).Contents (Elt Ideal)) (e : Fin 10000) (k : Fin 256) :
    val_main_v27 (F := Ideal) x0 x1 x2 x3 x4 x5 x6 x7 x12 (ix2 e k)
      = Cert.Mlp.hid (val_main_v23 (F := Ideal) x0 x1 x2 x3 x4 x5 x12) x6 x7 e k := by
  rw [val_main_v27_apply, val_main_v24_apply, val_main_v26_apply, val_main_v25_apply, bidx26]
  unfold Cert.Mlp.hid
  exact congrArg (· + x7 (ix1 k)) (Finset.sum_congr rfl fun l _ => by rw [lidx24, ridx24])

/-- The update network's hidden stage after the activation, at `(e, k)`: the logistic is spelt out. -/
private theorem act_upd (x0 : (⟨S10000x256, .f32⟩ : BufTy).Contents (Elt Ideal)) (x1 : (⟨S320000x20, .f32⟩ : BufTy).Contents (Elt Ideal)) (x2 : (⟨S20x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) (x12 : (⟨S2x320000, .i32⟩ : BufTy).Contents (Elt Ideal)) (e : Fin 10000) (k : Fin 256) :
    val_main_v28 (F := Ideal) x0 x1 x2 x3 x4 x5 x6 x7 x12 (ix2 e k)
      = FloatOps.mulf (val_main_v27 (F := Ideal) x0 x1 x2 x3 x4 x5 x6 x7 x12 (ix2 e k)) (FloatOps.hostDivf (Ideal.ofBits .f32 0x3F800000#32)
          (FloatOps.addf (Ideal.ofBits .f32 0x3F800000#32)
            (FloatOps.hostUnary .exp (FloatOps.hostNegf (val_main_v27 (F := Ideal) x0 x1 x2 x3 x4 x5 x6 x7 x12 (ix2 e k)))))) := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply]
  rfl

/-- The node-update stage is the network of the aggregated messages. -/
theorem upd_eq (x0 : (⟨S10000x256, .f32⟩ : BufTy).Contents (Elt Ideal)) (x1 : (⟨S320000x20, .f32⟩ : BufTy).Contents (Elt Ideal)) (x2 : (⟨S20x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal))
    (x12 : (⟨S2x320000, .i32⟩ : BufTy).Contents (Elt Ideal)) :
    val_main_v32 (F := Ideal) x0 x1 x2 x3 x4 x5 x6 x7 x8 x9 x12
      = Cert.Mlp.updSpec (val_main_v23 (F := Ideal) x0 x1 x2 x3 x4 x5 x12) x6 x7 x8 x9 := by
  funext i
  obtain ⟨e, o, rfl⟩ : ∃ (e : Fin 10000) (o : Fin 256), i = ix2 e o := ⟨i 0, i 1, eq_ix2 i⟩
  rw [Cert.Mlp.updSpec_apply, val_main_v32_apply, val_main_v29_apply, val_main_v31_apply, val_main_v30_apply, bidx31]
  refine Eq.trans ?_ (mlp_of_entries (val_main_v23 (F := Ideal) x0 x1 x2 x3 x4 x5 x12) x6 x7 x8 x9 e o
      (fun k => val_main_v27 (F := Ideal) x0 x1 x2 x3 x4 x5 x6 x7 x12 (ix2 e k))
      (fun k => val_main_v28 (F := Ideal) x0 x1 x2 x3 x4 x5 x6 x7 x12 (ix2 e k))
      (pre_upd x0 x1 x2 x3 x4 x5 x6 x7 x12 e) (act_upd x0 x1 x2 x3 x4 x5 x6 x7 x12 e))
  exact congrArg (fun s : Ideal .f32 => FloatOps.addf s (x9 (ix1 o)))
    (Finset.sum_congr rfl fun k _ => by rw [lidx29, ridx29])

end Cert.ReferenceIdeal.RefStages

end
-- ==== Proof.Chain.lean ====
/-
  The host operations the two programs share, each as one function of what it is applied to.

  After the two networks both programs do the same things to the same kinds of arrays: the messages are summed into
  the rows their first index row names (`aggOf`), and the updated node features `h` are normalised over the node axis
  and added to the input (`bnTail`): with `μ` the column means of `h` and `σ²` the column means of `(h - μ)²`,

      bnTail h x γ β = x + (γ · (h - μ) · rsqrt (σ² + ε) + β),

  the column vectors broadcast along the rows. Nothing here opens a sum, a gather or a scatter: the two programs apply
  these functions to arrays that are proved equal, and the functions stay closed.
-/
import proofs.«140102_j72086731096588_1_alg».proof.Proof.Gen.ReferenceIdeal.Read

noncomputable section

open Idealize.ShloMosaic Idealize.ShloMosaic.TcCoe

namespace Cert.ReferenceIdeal.Chain

open Cert.ReferenceIdeal Cert.ReferenceIdeal.Gen Cert.ReferenceIdeal.Read

variable {F : FTy → Type} [FloatOps F]

/-- The column means of a [10000, 256] array: the sum over the rows divided by 10000. -/
def colMean (h : (⟨S10000x256, .f32⟩ : BufTy).Contents (Elt F)) : (⟨S256, .f32⟩ : BufTy).Contents (Elt F) :=
  Host.divf (Host.reduceAdd h (constant S_ .f32 0x00000000#32) reducesTo_S10000x256_S256_d0 h_S_)
    (broadcastInDim S256 ![] bcast_S_S256 (constant S_ .f32 0x461C4000#32))

/-- A vector of 256 columns repeated along the 10000 rows. -/
def rows (v : (⟨S256, .f32⟩ : BufTy).Contents (Elt F)) : (⟨S10000x256, .f32⟩ : BufTy).Contents (Elt F) :=
  broadcastInDim S10000x256 ![0, 1] bcast_S1x256_S10000x256_0_1 (broadcastInDim S1x256 ![1] bcast_S256_S1x256_1 v)

/-- The normalisation over the node axis with scale `γ` and shift `β`, added to the input `x`. -/
def bnTail (h x : (⟨S10000x256, .f32⟩ : BufTy).Contents (Elt F)) (γ β : (⟨S256, .f32⟩ : BufTy).Contents (Elt F)) : (⟨S10000x256, .f32⟩ : BufTy).Contents (Elt F) :=
  addf x (addf (mulf (mulf (rows γ) (subf h (rows (colMean h))))
      (rows (Host.rsqrt (addf (colMean (mulf (subf h (rows (colMean h))) (subf h (rows (colMean h)))))
        (broadcastInDim S256 ![] bcast_S_S256 (constant S_ .f32 0x3727C5AC#32))))))
    (rows β))

/-- The messages summed into the rows named by the first row of the edge index. -/
def aggOf (msg : (⟨S320000x256, .f32⟩ : BufTy).Contents (Elt F)) (x12 : (⟨S2x320000, .i32⟩ : BufTy).Contents (Elt F)) : (⟨S10000x256, .f32⟩ : BufTy).Contents (Elt F) :=
  Host.scatterAdd scatter_S10000x256_S320000x1_S320000x256_1_0_0_1 (val_main_v21 (F := F)) (val_main_v22 (F := F) x12) msg

/-- The reference's aggregation stage is `aggOf` of its message stage. -/
theorem val_main_v23_eq (x0 : (⟨S10000x256, .f32⟩ : BufTy).Contents (Elt F)) (x1 : (⟨S320000x20, .f32⟩ : BufTy).Contents (Elt F)) (x2 : (⟨S20x256, .f32⟩ : BufTy).Contents (Elt F)) (x3 : (⟨S256, .f32⟩ : BufTy).Contents (Elt F)) (x4 : (⟨S256x256, .f32⟩ : BufTy).Contents (Elt F))
    (x5 : (⟨S256, .f32⟩ : BufTy).Contents (Elt F)) (x12 : (⟨S2x320000, .i32⟩ : BufTy).Contents (Elt F)) :
    val_main_v23 (F := F) x0 x1 x2 x3 x4 x5 x12 = aggOf (val_main_v20 (F := F) x0 x1 x2 x3 x4 x5 x12) x12 := rfl

/-- The reference's result is `bnTail` of its node-update stage. -/
theorem val_main_v58_eq_tail (x0 : (⟨S10000x256, .f32⟩ : BufTy).Contents (Elt F)) (x1 : (⟨S320000x20, .f32⟩ : BufTy).Contents (Elt F)) (x2 : (⟨S20x256, .f32⟩ : BufTy).Contents (Elt F)) (x3 : (⟨S256, .f32⟩ : BufTy).Contents (Elt F)) (x4 : (⟨S256x256, .f32⟩ : BufTy).Contents (Elt F))
    (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 x11 : (⟨S256, .f32⟩ : BufTy).Contents (Elt F))
    (x12 : (⟨S2x320000, .i32⟩ : BufTy).Contents (Elt F)) :
    val_main_v58 (F := F) x0 x1 x2 x3 x4 x5 x6 x7 x8 x9 x10 x11 x12
      = bnTail (val_main_v32 (F := F) x0 x1 x2 x3 x4 x5 x6 x7 x8 x9 x12) x0 x10 x11 := by
  generalize hh : val_main_v32 (F := F) x0 x1 x2 x3 x4 x5 x6 x7 x8 x9 x12 = h
  simp only [val_main_v58, val_main_v57, val_main_v56, val_main_v55, val_main_v54, val_main_v53, val_main_v52, val_main_v51,
    val_main_v50, val_main_v49, val_main_cst_5, val_main_v48, val_main_v47, val_main_v46, val_main_v45, val_main_v44,
    val_main_v43, val_main_v42, val_main_v41, val_main_cst_4, val_main_v40, val_main_cst_3, val_main_v39, val_main_v38,
    val_main_v37, val_main_v36, val_main_v35, val_main_v34, val_main_cst_2, val_main_v33, val_main_cst_1, hh,
    bnTail, rows, colMean]

end Cert.ReferenceIdeal.Chain

end
-- ==== Proof.KernelFold.lean ====
/-
  The kernel program's result buffer, read back through @main to the launch memory.

  @main is five segments: host operations (the edge index rows, the gather of the source rows), the first region
  (messages), host operations (the scatter-add into the node rows), the second region (the node update), host
  operations (the normalisation and the residual). The contents of the buffers at each boundary are a fold over the
  segments. Read at the result buffer the fold is: the normalisation of the second region's output array, which is
  the update network of the aggregated messages, which are the first region's output array summed by row index,
  which is the filter network of the edge features times the gathered rows. Each of these is the reference's stage
  of the same name, so the result is the reference's staged term of the launch arrays.
-/
import proofs.«140102_j72086731096588_1_alg».proof.Proof.Gen.KernelIdeal.Frame
import proofs.«140102_j72086731096588_1_alg».proof.Proof.Region0
import proofs.«140102_j72086731096588_1_alg».proof.Proof.Region1
import proofs.«140102_j72086731096588_1_alg».proof.Proof.RefStages
import proofs.«140102_j72086731096588_1_alg».proof.Proof.Chain
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.FoldValue

open Cert.KernelIdeal Cert.KernelIdeal.Gen

variable (m : (ℓ : Loc nD τ sig) → Buf (Elt Ideal) ℓ) (ρ : Dev nD → PrngReg)

/-- A buffer no operation of the list writes holds after the list what it held before. -/
local macro "unwritten" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The first region's entry -/

/-- An argument array is untouched by the first host stretch. -/
theorem W1_arg (c : Dev nD) (b : Ref sig .tc)
    (h : W1 m ρ c (Proc.devRef .tc b) = W0 m ρ c (Proc.devRef .tc b)) :
    V1 m ρ c b = m ((c : Thread nD τ).loc b) := h.trans rfl

theorem V1_arg1 (c : Dev nD) : V1 m ρ c main_arg1 = m ((c : Thread nD τ).loc main_arg1) := W1_arg m ρ c main_arg1 (by unwritten hostOps0)
theorem V1_arg2 (c : Dev nD) : V1 m ρ c main_arg2 = m ((c : Thread nD τ).loc main_arg2) := W1_arg m ρ c main_arg2 (by unwritten hostOps0)
theorem V1_arg3 (c : Dev nD) : V1 m ρ c main_arg3 = m ((c : Thread nD τ).loc main_arg3) := W1_arg m ρ c main_arg3 (by unwritten hostOps0)
theorem V1_arg4 (c : Dev nD) : V1 m ρ c main_arg4 = m ((c : Thread nD τ).loc main_arg4) := W1_arg m ρ c main_arg4 (by unwritten hostOps0)
theorem V1_arg5 (c : Dev nD) : V1 m ρ c main_arg5 = m ((c : Thread nD τ).loc main_arg5) := W1_arg m ρ c main_arg5 (by unwritten hostOps0)

/-- The gathered source rows are the reference's gather stage of the launch arrays. -/
theorem V1_v10 (c : Dev nD) : V1 m ρ c main_v10 = Cert.ReferenceIdeal.Read.val_main_v19 (F := Ideal) (m ((c : Thread nD τ).loc main_arg0)) (m ((c : Thread nD τ).loc main_arg12)) := by
  show StableHlo.after hostOps0 (W0 m ρ c) (Proc.devRef .tc main_v10) = _
  after_results
  rfl

/-- The first row of the edge index, flattened, is the reference's stage of the same name. -/
theorem W1_v1 (c : Dev nD) : W1 m ρ c (Proc.devRef .tc main_v1) = Cert.ReferenceIdeal.Read.val_main_v1 (F := Ideal) (m ((c : Thread nD τ).loc main_arg12)) := by
  show StableHlo.after hostOps0 (W0 m ρ c) (Proc.devRef .tc main_v1) = _
  after_results
  rfl

/-! ## The first region's exit, and the second region's entry -/

/-- The first region's output array holds the reference's message stage. -/
theorem W2_v11 (c : Dev nD) : W2 m ρ c (Proc.devRef .tc main_v11)
    = Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) := by
  have e : W2 m ρ c (Proc.devRef .tc main_v11) = (dat0 (V1 m ρ) c).arrAt 6 cfg0.N := W2_arr m ρ c 6
  rw [e, Cert.KernelIdeal.Region0Value.region0_array (V1 m ρ) c, V1_v10 m ρ c, V1_arg1 m ρ c, V1_arg2 m ρ c,
    V1_arg3 m ρ c, V1_arg4 m ρ c, V1_arg5 m ρ c]
  exact (Cert.ReferenceIdeal.RefStages.msg_eq _ _ _ _ _ _ _).symm

/-- The flattened first index row is not one of the first region's arrays. -/
theorem W2_v1 (c : Dev nD) : W2 m ρ c (Proc.devRef .tc main_v1) = Cert.ReferenceIdeal.Read.val_main_v1 (F := Ideal) (m ((c : Thread nD τ).loc main_arg12)) :=
  (W2_of_ne m ρ c main_v1 (by decide)).trans (W1_v1 m ρ c)

/-- The aggregated messages are the reference's scatter stage. -/
theorem V3_v14 (c : Dev nD) : V3 m ρ c main_v14
    = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) := by
  show StableHlo.after hostOps1 (W2 m ρ c) (Proc.devRef .tc main_v14) = _
  after_results
  rw [W2_v1 m ρ c, W2_v11 m ρ c]
  rfl

/-- An argument array that neither host stretch writes and that is not one of the first region's arrays reaches the
    second region as launched. -/
theorem V3_arg (c : Dev nD) (b : Ref sig .tc)
    (h1 : W3 m ρ c (Proc.devRef .tc b) = W2 m ρ c (Proc.devRef .tc b)) (h2 : ∀ w, Pipeline.arrRef spec0 w ≠ b)
    (h3 : W1 m ρ c (Proc.devRef .tc b) = W0 m ρ c (Proc.devRef .tc b)) :
    V3 m ρ c b = m ((c : Thread nD τ).loc b) :=
  h1.trans ((W2_of_ne m ρ c b h2).trans (h3.trans rfl))

theorem V3_arg6 (c : Dev nD) : V3 m ρ c main_arg6 = m ((c : Thread nD τ).loc main_arg6) :=
  V3_arg m ρ c main_arg6 (by unwritten hostOps1) (by decide) (by unwritten hostOps0)
theorem V3_arg7 (c : Dev nD) : V3 m ρ c main_arg7 = m ((c : Thread nD τ).loc main_arg7) :=
  V3_arg m ρ c main_arg7 (by unwritten hostOps1) (by decide) (by unwritten hostOps0)
theorem V3_arg8 (c : Dev nD) : V3 m ρ c main_arg8 = m ((c : Thread nD τ).loc main_arg8) :=
  V3_arg m ρ c main_arg8 (by unwritten hostOps1) (by decide) (by unwritten hostOps0)
theorem V3_arg9 (c : Dev nD) : V3 m ρ c main_arg9 = m ((c : Thread nD τ).loc main_arg9) :=
  V3_arg m ρ c main_arg9 (by unwritten hostOps1) (by decide) (by unwritten hostOps0)

/-! ## The second region's exit, and the result -/

/-- The second region's output array holds the reference's node-update stage. -/
theorem W4_v15 (c : Dev nD) : W4 m ρ c (Proc.devRef .tc main_v15)
    = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) := by
  have e : W4 m ρ c (Proc.devRef .tc main_v15) = (dat1 (V3 m ρ) c).arrAt 5 cfg1.N := W4_arr m ρ c 5
  rw [e, Cert.KernelIdeal.Region1Value.region1_array (V3 m ρ) c, V3_v14 m ρ c, V3_arg6 m ρ c, V3_arg7 m ρ c,
    V3_arg8 m ρ c, V3_arg9 m ρ c]
  exact (Cert.ReferenceIdeal.RefStages.upd_eq _ _ _ _ _ _ _ _ _ _ _).symm

/-- An argument array that is none of the regions' arrays and that no host stretch writes is, at the second region's
    exit, as launched. -/
theorem W4_arg (c : Dev nD) (b : Ref sig .tc) (h0 : ∀ w, Pipeline.arrRef spec1 w ≠ b)
    (h1 : W3 m ρ c (Proc.devRef .tc b) = W2 m ρ c (Proc.devRef .tc b)) (h2 : ∀ w, Pipeline.arrRef spec0 w ≠ b)
    (h3 : W1 m ρ c (Proc.devRef .tc b) = W0 m ρ c (Proc.devRef .tc b)) :
    W4 m ρ c (Proc.devRef .tc b) = m ((c : Thread nD τ).loc b) :=
  (W4_of_ne m ρ c b h0).trans (V3_arg m ρ c b h1 h2 h3)

theorem W4_arg0 (c : Dev nD) : W4 m ρ c (Proc.devRef .tc main_arg0) = m ((c : Thread nD τ).loc main_arg0) :=
  W4_arg m ρ c main_arg0 (by decide) (by unwritten hostOps1) (by decide) (by unwritten hostOps0)
theorem W4_arg10 (c : Dev nD) : W4 m ρ c (Proc.devRef .tc main_arg10) = m ((c : Thread nD τ).loc main_arg10) :=
  W4_arg m ρ c main_arg10 (by decide) (by unwritten hostOps1) (by decide) (by unwritten hostOps0)
theorem W4_arg11 (c : Dev nD) : W4 m ρ c (Proc.devRef .tc main_arg11) = m ((c : Thread nD τ).loc main_arg11) :=
  W4_arg m ρ c main_arg11 (by decide) (by unwritten hostOps1) (by decide) (by unwritten hostOps0)

set_option maxHeartbeats 8000000 in
/-- The result buffer at the last boundary holds the reference's staged result of the launch arrays. -/
theorem result_eq (c : Dev nD) : W5 m ρ c (Proc.devRef .tc main_v41)
    = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v41) = _
  after_results
  rw [W4_v15 m ρ c, W4_arg0 m ρ c, W4_arg10 m ρ c, W4_arg11 m ρ c, Cert.ReferenceIdeal.Chain.val_main_v58_eq_tail]
  generalize Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) = h
  rfl

end Cert.KernelIdeal.FoldValue

end
-- ==== Proof.lean ====
/-
  A SchNet-style message-passing layer: a Pallas program of two kernels against its jnp reference, equal over the
  extended reals.

  Both programs compute, for node features `x` [10000, 256], edge features `rbf` [320000, 20] and an edge index
  `ei` [2, 320000]:
      filt = silu(rbf · Wf1 + bf1) · Wf2 + bf2          (a two-layer network on every edge)
      msg  = x[ei[1]] ⊙ filt                            (the gathered source rows times the filter)
      agg  = the rows of msg summed into the node rows ei[0] names
      h    = silu(agg · Wu1 + bu1) · Wu2 + bu2          (a two-layer network on every node)
      out  = x + (γ ⊙ (h − mean h) ⊙ rsqrt(var h + ε) + β)   (normalisation over the node axis, plus the input)
  The kernel program runs the two networks as TensorCore kernels over row blocks of 2000 (the first one fused with the
  product by the gathered rows) and does the gather, the scatter-add and the normalisation on the host; the reference
  does everything on the host. Over the extended reals the sixteen-bit narrowing of the matrix products' operands is the
  identity, a matrix product into a zero accumulator is the plain sum, and the logistic as one operation is the logistic
  spelt `1 / (1 + e^(-z))`; a row block of a network's output reads the same row block of its input only. So each
  kernel's output array is the reference's stage of the same name, and the gather, the scatter-add and the
  normalisation are the same functions applied to equal arrays: they are never opened. No step uses finiteness of
  the inputs.

  The three frames are the generated ones (the reference's is its generated run with the result dropped); the ideal
  pass rewrote nothing, so `preserves` is trivial.
-/
import proofs.«140102_j72086731096588_1_alg».proof.Defs
import proofs.«140102_j72086731096588_1_alg».proof.Proof.Gen.Kernel
import proofs.«140102_j72086731096588_1_alg».proof.Proof.Gen.Kernel.Skeleton
import proofs.«140102_j72086731096588_1_alg».proof.Proof.Gen.Kernel.Launch
import proofs.«140102_j72086731096588_1_alg».proof.Proof.Gen.Kernel.Points
import proofs.«140102_j72086731096588_1_alg».proof.Proof.Gen.Kernel.Frame
import proofs.«140102_j72086731096588_1_alg».proof.Proof.Gen.KernelIdeal
import proofs.«140102_j72086731096588_1_alg».proof.Proof.Gen.KernelIdeal.Skeleton
import proofs.«140102_j72086731096588_1_alg».proof.Proof.Gen.KernelIdeal.Launch
import proofs.«140102_j72086731096588_1_alg».proof.Proof.Gen.KernelIdeal.Points
import proofs.«140102_j72086731096588_1_alg».proof.Proof.Gen.KernelIdeal.Frame
import proofs.«140102_j72086731096588_1_alg».proof.Proof.Gen.ReferenceIdeal
import proofs.«140102_j72086731096588_1_alg».proof.Proof.Gen.ReferenceIdeal.Run
import proofs.«140102_j72086731096588_1_alg».proof.Proof.Gen.ReferenceIdeal.Read
import proofs.«140102_j72086731096588_1_alg».proof.Proof.Gen.Pre_finite_inputs
import proofs.«140102_j72086731096588_1_alg».proof.Proof.KernelRun
import proofs.«140102_j72086731096588_1_alg».proof.Proof.KernelFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass's ledger is empty. -/
theorem preserves : Cert.preserves_Kernel_KernelIdeal := trivial

/-- Both runs end with the result at the reference's staged term of the kernel program's launch arrays: the kernel
    program's by reading its result buffer back through @main, the reference's by its run and the agreement of the two
    launch memories on the arguments. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.FoldValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v58_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
